-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048x7x7 : Shape := ⟨4, ![256, 2048, 7, 7]⟩
abbrev S_ : Shape := ⟨0, ![]⟩

class Facts : Prop where
  bcast_S_S256x2048x7x7 : S_.BroadcastsInDim S256x2048x7x7 (![] : Fin 0 → Fin S256x2048x7x7.rank)
  reducesTo_S256x2048x7x7_S_d0_1_2_3 : S256x2048x7x7.ReducesTo [0, 1, 2, 3] S_
  h_S_ : 0 < S_.numel

variable [Facts]

def fn {F : FTy → Type} [FloatOps F] (main_arg0 : FVec F S256x2048x7x7 .f32) : IVec S_ 1 :=
  let main_v0 : FVec F S256x2048x7x7 .f32 := Host.absf main_arg0
  let main_cst : FVec F S_ .f32 := constant S_ .f32 0x7F800000#32
  let main_v1 : FVec F S256x2048x7x7 .f32 := broadcastInDim S256x2048x7x7 ![] bcast_S_S256x2048x7x7 main_cst
  let main_v2 : IVec S256x2048x7x7 1 := cmpf .olt main_v0 main_v1
  let main_c : IVec S_ 1 := constantI S_ 1 1#1
  let main_v3 : IVec S_ 1 := (fun x v => Host.reduce IntOp.andi x v reducesTo_S256x2048x7x7_S_d0_1_2_3 h_S_) main_v2 main_c
  main_v3
-- ==== Kernel.lean ====
abbrev S256x2048x7x7 : Shape := ⟨4, ![256, 2048, 7, 7]⟩
abbrev S25690112 : Shape := ⟨1, ![25690112]⟩
abbrev S4096x6272 : Shape := ⟨2, ![4096, 6272]⟩
abbrev S4096x128 : Shape := ⟨2, ![4096, 128]⟩
abbrev S256x6272 : Shape := ⟨2, ![256, 6272]⟩
abbrev S256x128 : Shape := ⟨2, ![256, 128]⟩
abbrev S6272x128 : Shape := ⟨2, ![6272, 128]⟩
abbrev S524288 : Shape := ⟨1, ![524288]⟩
abbrev S256x2048x1x1 : Shape := ⟨4, ![256, 2048, 1, 1]⟩

abbrev nBuf : Space → Nat
  | .hbm => 6
  | .vmem => 4
  | .smem => 0
  | _ => 0

abbrev bufTy : (tb : Table) → Fin (tcTables nBuf tb) → BufTy
  | .hbm, ⟨0, _⟩ => ⟨S256x2048x7x7, .f32⟩
  | .hbm, ⟨1, _⟩ => ⟨S25690112, .f32⟩
  | .hbm, ⟨2, _⟩ => ⟨S4096x6272, .f32⟩
  | .hbm, ⟨3, _⟩ => ⟨S4096x128, .f32⟩
  | .hbm, ⟨4, _⟩ => ⟨S524288, .f32⟩
  | .hbm, ⟨5, _⟩ => ⟨S256x2048x1x1, .f32⟩
  | .local _ .vmem, ⟨0, _⟩ => ⟨S256x6272, .f32⟩
  | .local _ .vmem, ⟨1, _⟩ => ⟨S256x6272, .f32⟩
  | .local _ .vmem, ⟨2, _⟩ => ⟨S256x128, .f32⟩
  | .local _ .vmem, ⟨3, _⟩ => ⟨S256x128, .f32⟩
  | _, _ => ⟨S256x2048x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6272 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S256x2048x7x7_S25690112 : S256x2048x7x7.ShapeCasts S25690112
  shapeCasts_S25690112_S4096x6272 : S25690112.ShapeCasts S4096x6272
  iota_S6272x128_d0_w32 : S6272x128.Iotas .tc 32 [0]
  iota_S6272x128_d1_w32 : S6272x128.Iotas .tc 32 [1]
  natLt_1_32 : 1 < 32
  inb_S256x6272_S256x6272_0_0 : ∀ a, (![0, 0] : Fin 2 → Nat) a + S256x6272.size a ≤ S256x6272.size a
  h_S256x6272 : 0 < S256x6272.numel
  shapeCasts_S256x6272_S256x6272 : S256x6272.ShapeCasts S256x6272
  inb_S256x128_S256x128_0_0 : ∀ a, (![0, 0] : Fin 2 → Nat) a + S256x128.size a ≤ S256x128.size a
  h_S256x128 : 0 < S256x128.numel
  shapeCasts_S4096x128_S524288 : S4096x128.ShapeCasts S524288
  shapeCasts_S524288_S256x2048x1x1 : S524288.ShapeCasts S256x2048x1x1
  dot_S256x6272_S6272x128_S256x128_1_0_0_1_n_n_wf : DotDims.WF S256x6272 S6272x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x6272.size a ≤ S4096x6272.size a
  hwx0_0 : ∀ i : grid0.Coords, EltTy.bits .f32 = 32 ∨ (Rect.block (s := S4096x6272) S256x6272.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S4096x128.size a
  hwx0_1 : ∀ i : grid0.Coords, EltTy.bits .f32 = 32 ∨ (Rect.block (s := S4096x128) S256x128.size (cc0_transform_1 i) (hinb0_1 i)).WholeWords (EltTy.packing .f32)

variable [Facts₀]

def dot_S256x6272_S6272x128_S256x128_1_0_0_1_n_n : DotDims S256x6272 S6272x128 S256x128 where
  lhsContracting := [1]
  rhsContracting := [0]
  lhsNonContracting := [0]
  rhsNonContracting := [1]
  lhsBatch := []
  rhsBatch := []
  wf := dot_S256x6272_S6272x128_S256x128_1_0_0_1_n_n_wf

abbrev win0_0 : Pipeline.Window sig grid0 :=
  Pipeline.Window.ofSpec (Memref.whole main_v1) S256x6272.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x2048x7x7 : Shape := ⟨4, ![256, 2048, 7, 7]⟩
abbrev S524288x49 : Shape := ⟨2, ![524288, 49]⟩
abbrev S1x524288 : Shape := ⟨2, ![1, 524288]⟩
abbrev S10624x49 : Shape := ⟨2, ![10624, 49]⟩
abbrev S1x10624 : Shape := ⟨2, ![1, 10624]⟩
abbrev S10624 : Shape := ⟨1, ![10624]⟩
abbrev S256x2048x1x1 : Shape := ⟨4, ![256, 2048, 1, 1]⟩

abbrev nBuf : Space → Nat
  | .hbm => 4
  | .vmem => 4
  | .smem => 0
  | _ => 0

abbrev bufTy : (tb : Table) → Fin (tcTables nBuf tb) → BufTy
  | .hbm, ⟨0, _⟩ => ⟨S256x2048x7x7, .f32⟩
  | .hbm, ⟨1, _⟩ => ⟨S524288x49, .f32⟩
  | .hbm, ⟨2, _⟩ => ⟨S1x524288, .f32⟩
  | .hbm, ⟨3, _⟩ => ⟨S256x2048x1x1, .f32⟩
  | .local _ .vmem, ⟨0, _⟩ => ⟨S10624x49, .f32⟩
  | .local _ .vmem, ⟨1, _⟩ => ⟨S10624x49, .f32⟩
  | .local _ .vmem, ⟨2, _⟩ => ⟨S1x10624, .f32⟩
  | .local _ .vmem, ⟨3, _⟩ => ⟨S1x10624, .f32⟩
  | _, _ => ⟨S256x2048x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S10624x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x10624 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S256x2048x7x7_S524288x49 : S256x2048x7x7.ShapeCasts S524288x49
  inb_S10624x49_S10624x49_0_0 : ∀ a, (![0, 0] : Fin 2 → Nat) a + S10624x49.size a ≤ S10624x49.size a
  h_S10624x49 : 0 < S10624x49.numel
  shapeCasts_S10624x49_S10624x49 : S10624x49.ShapeCasts S10624x49
  reduces_S10624x49_S10624 : S10624x49.Reduces [1] S10624
  shapeCasts_S10624_S1x10624 : S10624.ShapeCasts S1x10624
  inb_S1x10624_S1x10624_0_0 : ∀ a, (![0, 0] : Fin 2 → Nat) a + S1x10624.size a ≤ S1x10624.size a
  h_S1x10624 : 0 < S1x10624.numel
  shapeCasts_S1x524288_S256x2048x1x1 : S1x524288.ShapeCasts S256x2048x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S10624x49.size a < S524288x49.size a
  hwx0_0 : ∀ i : grid0.Coords, EltTy.bits .f32 = 32 ∨ (Rect.unit (s := S524288x49) (fun a => cc0_transform_0 i a * S10624x49.size a) (fun a => (Pipeline.Clip.of (cc0_transform_0 i a) (S10624x49.size a) (S524288x49.size a)).extent (S10624x49.size a)) fun a => Pipeline.Clip.inb (Pipeline.Clip.ok_of (hstart0_0 i a))).WholeWords (EltTy.packing .f32)
  hwxs0_0 : ∀ i : grid0.Coords, EltTy.bits .f32 = 32 ∨ (Rect.unit (s := S10624x49) (fun _ => 0) (fun a => (Pipeline.Clip.of (cc0_transform_0 i a) (S10624x49.size a) (S524288x49.size a)).extent (S10624x49.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x10624.size a < S1x524288.size a
  hwx0_1 : ∀ i : grid0.Coords, EltTy.bits .f32 = 32 ∨ (Rect.unit (s := S1x524288) (fun a => cc0_transform_1 i a * S1x10624.size a) (fun a => (Pipeline.Clip.of (cc0_transform_1 i a) (S1x10624.size a) (S1x524288.size a)).extent (S1x10624.size a)) fun a => Pipeline.Clip.inb (Pipeline.Clip.ok_of (hstart0_1 i a))).WholeWords (EltTy.packing .f32)
  hwxs0_1 : ∀ i : grid0.Coords, EltTy.bits .f32 = 32 ∨ (Rect.unit (s := S1x10624) (fun _ => 0) (fun a => (Pipeline.Clip.of (cc0_transform_1 i a) (S1x10624.size a) (S1x524288.size a)).extent (S1x10624.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpecClip (Memref.whole main_v0) S10624x49.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S1x10624.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== Proof.Spec.lean ====
/-
  Global average pooling over the two trailing axes of an f32[256, 2048, 7, 7] array, as ONE function of the
  argument array at the ideal values: the entry (b, c, 0, 0) of the result is the sum of the 49 entries
  x[b, c, p, q] times the word both programs carry for 1/49. Both programs are compared with this function;
  the law that joins them is that a sum of products by one finite factor is the product of the sum by it,
  and that a product by zero contributes nothing.
-/
import Idealize.ShloMosaic.PureOps.Ideal
import Idealize.ShloMosaic.PureOps.Ideal.Laws
import Idealize.ShloMosaic.Lib.ValueIdx

noncomputable section

namespace Cert.Pool

open Idealize.ShloMosaic Idealize.ShloMosaic.ValueIdx

/-- The argument's shape and the result's. -/
abbrev SIn : Shape := ⟨4, ![256, 2048, 7, 7]⟩
abbrev SOut : Shape := ⟨4, ![256, 2048, 1, 1]⟩

/-- The factor of the mean: the f32 word nearest 1/49, read at the ideal values (the same word in both programs,
    so it is never evaluated). -/
def scale : EReal := Ideal.ofBits .f32 0x3CA72F05#32

/-- Entry `k` (of 49, row-major over the two pooled axes) of the window at batch `b`, channel `c`. -/
def cell (x : SIn.Idx → EReal) (b : Fin 256) (c : Fin 2048) (k : Fin 49) : EReal :=
  x (ix4 b c ⟨k.val / 7, by omega⟩ ⟨k.val % 7, Nat.mod_lt _ (by decide)⟩)

/-- The pooled array: the window's sum times the factor. -/
def G (x : SIn.Idx → EReal) : SOut.Idx → EReal := fun i =>
  (∑ k : Fin 49, cell x ⟨(i 0).val, (i 0).isLt⟩ ⟨(i 1).val, (i 1).isLt⟩ k) * scale

/-- The factor is a finite number: its exponent field is neither all ones nor zero. -/
theorem scale_real : ∃ s : ℝ, scale = (s : EReal) := by
  unfold scale Ideal.ofBits Ideal.ieee
  simp only []
  rw [if_neg (by decide), if_neg (by decide)]
  exact ⟨_, rfl⟩

/-- A finite sum of reals, coerced, is the sum of the coercions. -/
theorem coe_sum {ι : Type} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- A row of 6272 finite entries against the column `g` of the selection matrix — the factor where the
    entry's position divided by 49 is `g`, zero elsewhere — is the sum of the 49 entries of group `g` times the
    factor: the products by zero vanish, and a sum of products by one finite factor is the product of the sum. -/
theorem sel_sum (f : Fin 6272 → EReal) (hf : ∀ j, ∃ r : ℝ, f j = (r : EReal)) (g : Fin 128) :
    (∑ j : Fin 6272, f j * (if j.val / 49 = g.val then scale else 0))
      = (∑ k : Fin 49, f ⟨g.val * 49 + k.val, by have := g.isLt; have := k.isLt; omega⟩) * scale := by
  obtain ⟨s, hs⟩ := scale_real
  choose r hr using hf
  obtain rfl : f = fun j => (r j : EReal) := funext hr
  rw [hs]
  -- both sides as coercions of real sums
  have hL : ∀ j : Fin 6272, (r j : EReal) * (if j.val / 49 = g.val then (s : EReal) else 0)
      = ((if j.val / 49 = g.val then r j * s else 0 : ℝ) : EReal) := by
    intro j; split
    · rw [EReal.coe_mul]
    · rw [mul_zero, EReal.coe_zero]
  simp only [hL]
  rw [← coe_sum, ← coe_sum, ← EReal.coe_mul, Finset.sum_mul]
  congr 1
  -- the real sum over the positions of group g, re-indexed by the entry within the group
  rw [← Finset.sum_filter]
  refine Finset.sum_bij' (fun j hj => (⟨j.val - g.val * 49, by
      have := (Finset.mem_filter.mp hj).2; have := j.isLt; omega⟩ : Fin 49))
    (fun k _ => (⟨g.val * 49 + k.val, by have := g.isLt; have := k.isLt; omega⟩ : Fin 6272)) ?_ ?_ ?_ ?_ ?_
  · intro j hj; exact Finset.mem_univ _
  · intro k _; refine Finset.mem_filter.mpr ⟨Finset.mem_univ _, ?_⟩
    show (g.val * 49 + k.val) / 49 = g.val
    have := k.isLt; omega
  · intro j hj; apply Fin.ext; show g.val * 49 + (j.val - g.val * 49) = j.val
    have := (Finset.mem_filter.mp hj).2; omega
  · intro k _; apply Fin.ext; show g.val * 49 + k.val - g.val * 49 = k.val; omega
  · intro j hj
    have e : (⟨g.val * 49 + (j.val - g.val * 49), by
        have := (Finset.mem_filter.mp hj).2; have := j.isLt; have := g.isLt; omega⟩ : Fin 6272) = j := by
      apply Fin.ext; show g.val * 49 + (j.val - g.val * 49) = j.val
      have := (Finset.mem_filter.mp hj).2; omega
    show r j * s = r ⟨g.val * 49 + (j.val - g.val * 49), _⟩ * s
    rw [e]

end Cert.Pool

end
-- ==== Proof.Finite.lean ====
/-
  The precondition read at an entry: an array all of whose absolute values compare below +∞ holds a real number at
  every index. The printed predicate is the conjunction, over every index, of |x| < +∞, the bound being the f32 word
  of the positive infinity; an extended real whose absolute value is below the top is neither infinity.
-/
import proofs.«152840_g2000302540332858_pallasbulk_528_1_alg».proof.Pre_finite_inputs
import proofs.«152840_g2000302540332858_pallasbulk_528_1_alg».proof.Proof.Gen.Pre_finite_inputs
import proofs.«152840_g2000302540332858_pallasbulk_528_1_alg».proof.Proof.Spec
import Idealize.ShloMosaic.Lib.ReduceAll
import Idealize.ShloMosaic.Lib.Affine
import Idealize.ShloMosaic.Lib.ValueIdx

noncomputable section

namespace Cert.Pool

open Idealize.ShloMosaic

/-- The word the precondition compares against denotes +∞. -/
theorem inf_word : Ideal.ofBits .f32 0x7F800000#32 = (⊤ : EReal) := by
  simp [Ideal.ofBits, Ideal.ieee]

/-- Every entry of an array on which the printed precondition is all ones is a real number: the conjunction over all
    indices gives the comparison at each, the comparison says max x (−x) < ⊤, and that rules out both infinities. -/
theorem finite_of_pre [Cert.Pre_finite_inputs.Facts] (x : FVec Ideal SIn .f32)
    (h : Cert.Pre_finite_inputs.fn (F := Ideal) x = fun _ => 1#1) (i : SIn.Idx) : ∃ r : ℝ, x i = (r : EReal) := by
  have h0 := congrFun h ValueIdx.ix0
  dsimp only [Cert.Pre_finite_inputs.fn] at h0
  haveI : Subsingleton Cert.Pre_finite_inputs.S_.Idx := ⟨fun a b => funext fun d => d.elim0⟩
  have hi := Host.reduce_andi_all _ _ _ _ _ h0 i
  have hlt : max (x i) (-(x i)) < (⊤ : EReal) := by
    have : Ideal.cmp .olt (max (x i) (-(x i))) (Ideal.ofBits .f32 0x7F800000#32) = 1#1 := hi
    rw [inf_word] at this
    unfold Ideal.cmp at this
    simp only [] at this
    by_contra hc
    rw [decide_eq_false hc] at this
    exact absurd this (by decide)
  induction hx : x i using EReal.rec with
  | bot => rw [hx] at hlt; simp at hlt
  | top => rw [hx] at hlt; simp at hlt
  | coe r => exact ⟨r, rfl⟩

end Cert.Pool

end
-- ==== Proof.KerPay.lean ====
/-
  The kernel's stored value read at an index, at the ideal values: entry (r, g) of the [256, 128] result block is row `r`
  of the [256, 6272] input block against column `g` of the selection matrix, whose entry (j, g) is the factor of the
  mean where j / 49 = g and zero elsewhere (the printed floor division of a non-negative position by 49 is the
  quotient).
-/
import proofs.«152840_g2000302540332858_pallasbulk_528_1_alg».proof.Proof.Gen.KernelIdeal.Skeleton
import proofs.«152840_g2000302540332858_pallasbulk_528_1_alg».proof.Proof.Spec
import Idealize.ShloMosaic.PureOps.Ideal.Laws
import Idealize.ShloMosaic.Lib.ValueIdx
import Idealize.ShloMosaic.Lib.Pipeline.Value
import Idealize.ShloMosaic.Lib.Affine
import Idealize.ShloMosaic.Lib.Decide

noncomputable section

namespace Cert.KernelIdeal.KerPay

open Idealize.ShloMosaic Idealize.ShloMosaic.ValueIdx
open Cert.KernelIdeal Cert.KernelIdeal.Gen

/-! ## The contraction's operand indices -/

/-- The left operand's index at output (r, g) and contraction position j: row r is kept. -/
theorem lhs_dot_0 (i : S256x128.Idx) (k : dot_S256x6272_S6272x128_S256x128_1_0_0_1_n_n.contr.Idx) :
    (dot_S256x6272_S6272x128_S256x128_1_0_0_1_n_n.lhsIdx i k 0).val = (i 0).val := by
  unfold DotDims.lhsIdx
  rw [dif_neg (show ¬(0 : Fin S256x6272.rank) ∈ dot_S256x6272_S6272x128_S256x128_1_0_0_1_n_n.lhsBatch by decide),
    dif_pos (show (0 : Fin S256x6272.rank) ∈ dot_S256x6272_S6272x128_S256x128_1_0_0_1_n_n.lhsNonContracting by decide)]
  rfl

/-- Its column is the contraction position. -/
theorem lhs_dot_1 (i : S256x128.Idx) (k : dot_S256x6272_S6272x128_S256x128_1_0_0_1_n_n.contr.Idx) :
    (dot_S256x6272_S6272x128_S256x128_1_0_0_1_n_n.lhsIdx i k 1).val = (k ⟨0, by decide⟩).val :=
  dot_S256x6272_S6272x128_S256x128_1_0_0_1_n_n.lhsIdx_val_of_single (cl := 1) rfl i k

/-- The right operand's row is the contraction position. -/
theorem rhs_dot_0 (i : S256x128.Idx) (k : dot_S256x6272_S6272x128_S256x128_1_0_0_1_n_n.contr.Idx) :
    (dot_S256x6272_S6272x128_S256x128_1_0_0_1_n_n.rhsIdx i k 0).val = (k ⟨0, by decide⟩).val :=
  dot_S256x6272_S6272x128_S256x128_1_0_0_1_n_n.rhsIdx_val_of_single (cr := 0) rfl i k

/-- Its column is the output's column. -/
theorem rhs_dot_1 (i : S256x128.Idx) (k : dot_S256x6272_S6272x128_S256x128_1_0_0_1_n_n.contr.Idx) :
    (dot_S256x6272_S6272x128_S256x128_1_0_0_1_n_n.rhsIdx i k 1).val = (i 1).val := by
  unfold DotDims.rhsIdx
  rw [dif_neg (show ¬(1 : Fin S6272x128.rank) ∈ dot_S256x6272_S6272x128_S256x128_1_0_0_1_n_n.rhsBatch by decide),
    dif_pos (show (1 : Fin S6272x128.rank) ∈ dot_S256x6272_S6272x128_S256x128_1_0_0_1_n_n.rhsNonContracting by decide)]
  rfl

theorem lhs_at (r : Fin 256) (g : Fin 128) (j : Fin 6272) :
    dot_S256x6272_S6272x128_S256x128_1_0_0_1_n_n.lhsIdx (ix2 r g)
      ((contrEquiv1 dot_S256x6272_S6272x128_S256x128_1_0_0_1_n_n 6272 rfl rfl).symm j) = ix2 r j := by
  have c := contrEquiv1_symm_val dot_S256x6272_S6272x128_S256x128_1_0_0_1_n_n 6272 rfl rfl j
  funext ax; apply Fin.ext
  match ax with
  | ⟨0, _⟩ => exact lhs_dot_0 _ _
  | ⟨1, _⟩ => exact (lhs_dot_1 _ _).trans c

theorem rhs_at (r : Fin 256) (g : Fin 128) (j : Fin 6272) :
    dot_S256x6272_S6272x128_S256x128_1_0_0_1_n_n.rhsIdx (ix2 r g)
      ((contrEquiv1 dot_S256x6272_S6272x128_S256x128_1_0_0_1_n_n 6272 rfl rfl).symm j) = ix2 j g := by
  have c := contrEquiv1_symm_val dot_S256x6272_S6272x128_S256x128_1_0_0_1_n_n 6272 rfl rfl j
  funext ax; apply Fin.ext
  match ax with
  | ⟨0, _⟩ => exact (rhs_dot_0 _ _).trans c
  | ⟨1, _⟩ => exact rhs_dot_1 _ _

/-! ## The selection matrix -/

/-- The printed floor division by 49 on one 32-bit word: the truncated quotient, less one where the operands' signs
    differ and the remainder is not zero. -/
def floorWord (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 49#32 0#32)) (Scalar.extui (Scalar.cmpi .slt 49#32 0#32))))
      (IntOp.cmpi .ne (IntOp.remsi .vector x 49#32) 0#32))
    (IntOp.subi (IntOp.divsi .vector x 49#32) 1#32)
    (IntOp.divsi .vector x 49#32)

/-- On a position below 6272 it is the quotient. -/
theorem floorWord_ofNat : ∀ j : Fin 6272, floorWord (BitVec.ofNat 32 j.val) = BitVec.ofNat 32 (j.val / 49) := by
  decide +kernel

/-- Two words of naturals below 2 ^ 32 compare equal exactly when the naturals are equal. -/
theorem cmpi_eq_ofNat (a b : Nat) (ha : a < 2 ^ 32) (hb : b < 2 ^ 32) :
    IntOp.cmpi .eq (BitVec.ofNat 32 a) (BitVec.ofNat 32 b) = 1#1 ↔ a = b := by
  rw [IntOp.cmpi_eq]
  constructor
  · intro h
    have := congrArg BitVec.toNat h
    rwa [BitVec.toNat_ofNat, BitVec.toNat_ofNat, Nat.mod_eq_of_lt ha, Nat.mod_eq_of_lt hb] at this
  · rintro rfl; rfl

/-- One entry of the selection matrix, as a select on words. -/
theorem sel_word (j : Fin 6272) (g : Fin 128) :
    Scalar.select (IntOp.cmpi .eq (floorWord (BitVec.ofNat 32 j.val)) (BitVec.ofNat 32 g.val))
        (Ideal.ofBits .f32 0x3CA72F05#32) (Ideal.ofBits .f32 0x00000000#32)
      = if j.val / 49 = g.val then Cert.Pool.scale else 0 := by
  rw [floorWord_ofNat]
  unfold Scalar.select
  have hj := j.isLt
  have hg := g.isLt
  by_cases h : j.val / 49 = g.val
  · have hc : IntOp.cmpi .eq (BitVec.ofNat 32 (j.val / 49)) (BitVec.ofNat 32 g.val) = 1 :=
      (cmpi_eq_ofNat _ _ (by omega) (by omega)).2 h
    rw [if_pos hc, if_pos h]; rfl
  · have hc : ¬ IntOp.cmpi .eq (BitVec.ofNat 32 (j.val / 49)) (BitVec.ofNat 32 g.val) = 1 :=
      fun hc => h ((cmpi_eq_ofNat _ _ (by omega) (by omega)).1 hc)
    rw [if_neg hc, if_neg h]
    exact Ideal.ofBits_zero_f32

/-- The position along the rows, read at (j, g), is j. -/
theorem iota0_at (j : Fin 6272) (g : Fin 128) :
    iota .tc S6272x128 32 [0] iota_S6272x128_d0_w32 (ix2 j g) = BitVec.ofNat 32 j.val :=
  iota_single_apply _ _ _ _ _ _

/-- The position along the columns, read at (j, g), is g. -/
theorem iota1_at (j : Fin 6272) (g : Fin 128) :
    iota .tc S6272x128 32 [1] iota_S6272x128_d1_w32 (ix2 j g) = BitVec.ofNat 32 g.val :=
  iota_single_apply _ _ _ _ _ _

/-- Entry (r, g) of the stored block: the row against the selection column. -/
theorem pay_apply (X : Vec Ideal S256x6272 .f32) (r : Fin 256) (g : Fin 128) :
    k0_pay1 (F := Ideal) X (ix2 r g)
      = ∑ j : Fin 6272, X (ix2 r j) * (if j.val / 49 = g.val then Cert.Pool.scale else 0) := by
  unfold k0_pay1
  simp only [matmul]
  rw [Ideal.matmul_constant_zero_apply,
    ← Equiv.sum_comp (contrEquiv1 dot_S256x6272_S6272x128_S256x128_1_0_0_1_n_n 6272 rfl rfl).symm]
  refine Finset.sum_congr rfl fun j _ => ?_
  rw [lhs_at r g j, rhs_at r g j, shapeCast_self]
  refine congrArg (X (ix2 r j) * ·) ?_
  refine Eq.trans ?_ (sel_word j g)
  show Scalar.select
      (IntOp.cmpi .eq (floorWord (iota .tc S6272x128 32 [0] iota_S6272x128_d0_w32 (ix2 j g)))
        (iota .tc S6272x128 32 [1] iota_S6272x128_d1_w32 (ix2 j g))) _ _ = _
  rw [iota0_at, iota1_at]
  rfl

end Cert.KernelIdeal.KerPay

end
-- ==== Proof.KerValue.lean ====
/-
  What the kernel's result holds after the run: the pooled array. The argument is viewed flat and then [4096, 6272]:
  row r holds the 128 windows of pooled rows 128 r … 128 r + 127, 49 entries each. Each point multiplies a block of 256
  such rows by the selection matrix, so entry (r, g) of the [4096, 128] product is the scaled sum of window 128 r + g;
  the 16 blocks tile the product, and the closing reshapes lay entry (r, g) at pooled row 128 r + g = 2048 b + c.
-/
import proofs.«152840_g2000302540332858_pallasbulk_528_1_alg».proof.Proof.Gen.KernelIdeal.Frame
import proofs.«152840_g2000302540332858_pallasbulk_528_1_alg».proof.Proof.KerPay

set_option maxRecDepth 16384

noncomputable section

namespace Cert.KernelIdeal.KerValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ) (ρ : Dev nD → PrngReg)

/-- The array the region reads: the argument viewed flat, then as 4096 rows of 6272. -/
theorem rows_eq (c : Dev nD) : (V m c main_v1 : S4096x6272.Idx → EReal) =
    shapeCast S4096x6272 (shapeCast S25690112 (m ((c.tc : Thread nD τ).loc main_arg0)) shapeCasts_S256x2048x7x7_S25690112) shapeCasts_S25690112_S4096x6272 := by
  show StableHlo.after hostOps0 (fun b => m (c, b)) (Proc.devRef .tc main_v1) = _
  after_results
  rfl

/-- Entry (r, j) of the rows is the argument's entry with the same row-major position: position 6272 r + j of the
    flat view is ((b * 2048 + ch) * 7 + p) * 7 + q. -/
theorem rows_apply (c : Dev nD) (r : Fin 4096) (j : Fin 6272) (b : Fin 256) (ch : Fin 2048) (p q : Fin 7)
    (h : ((b.val * 2048 + ch.val) * 7 + p.val) * 7 + q.val = r.val * 6272 + j.val) :
    (V m c main_v1 : S4096x6272.Idx → EReal) (ix2 r j) = m ((c.tc : Thread nD τ).loc main_arg0) (ix4 b ch p q) := by
  rw [rows_eq]
  refine (shapeCast_apply _ _ (ix2 r j) (ix1 (⟨r.val * 6272 + j.val, by omega⟩ : Fin 25690112)) ?_).trans ?_
  · rw [Shape.rowMajor_val_one, Shape.rowMajor_val_two]; rfl
  refine shapeCast_apply _ _ _ (ix4 b ch p q) ?_
  rw [Shape.rowMajor_val_one, Shape.rowMajor_val_four]
  exact h

/-- The [4096, 128] product of the rows with the selection matrix: entry (R, g) is row R against column g, whose
    entry j is the factor of the mean where j / 49 = g and zero elsewhere. -/
def selProd (A : S4096x6272.Idx → EReal) : S4096x128.Idx → EReal := fun i =>
  ∑ j : Fin 6272, A (ix2 (⟨(i 0).val, (i 0).isLt⟩ : Fin 4096) j)
    * (if j.val / 49 = (i 1).val then Cert.Pool.scale else 0)

theorem selProd_apply (A : S4096x6272.Idx → EReal) (R : Fin 4096) (g : Fin 128) :
    selProd A (ix2 R g) = ∑ j : Fin 6272, A (ix2 R j) * (if j.val / 49 = g.val then Cert.Pool.scale else 0) := rfl

/-- A stored block's entry (r, g) is the product's entry (R, g) when the block's row r is the array's row R. -/
theorem block_entry (X : Vec Ideal S256x6272 .f32) (A : S4096x6272.Idx → EReal) (r : Fin 256) (g : Fin 128) (R : Fin 4096)
    (hX : ∀ j : Fin 6272, X (ix2 r j) = A (ix2 R j)) :
    k0_pay1 (F := Ideal) X (ix2 r g) = selProd A (ix2 R g) := by
  refine (Cert.KernelIdeal.KerPay.pay_apply X r g).trans ?_
  rw [selProd_apply]
  exact Finset.sum_congr rfl fun j _ => by rw [hX j]

theorem zeros : (![0, 0] : Fin 2 → Nat) = fun _ => 0 := funext fun a => by fin_cases a <;> rfl

/-- The printed index maps over the grid: both windows' blocks sit at block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point t, and the array it is cut from, at their literal types. -/
abbrev xblk (c : Dev nD) (t : Fin cfg0.N) : Vec Ideal S256x6272 .f32 := iblk m c 0 t
abbrev xarr (c : Dev nD) : S4096x6272.Idx → EReal := V m c main_v1

/-- Row r of the input block at point t is row 256 t + r of the array. -/
theorem xblk_apply (c : Dev nD) (t : Fin cfg0.N) (r : Fin 256) (j : Fin 6272) (R : Fin 4096) (hR : R.val = t.val * 256 + r.val) :
    xblk m c t (ix2 r j) = xarr m c (ix2 R j) := by
  obtain ⟨e0, e1, -, -⟩ := idx_facts t
  show V m c main_v1 (((cfg0.win 0).blk t).view.emb (ix2 r j)) = V m c main_v1 (ix2 R j)
  refine congrArg (V m c main_v1) (funext fun a => Fin.ext ?_)
  match a with
  | ⟨0, _⟩ => show win0_0.index t (0 : Fin 2) * 256 + 1 * r.val = R.val; omega
  | ⟨1, _⟩ => show win0_0.index t (1 : Fin 2) * 6272 + 1 * j.val = j.val; omega

/-- What point t writes back is block t of the product of the rows. -/
theorem flushed_eq (c : Dev nD) (t : Fin cfg0.N) :
    (dats m 0 c).flushed 1 t = ((cfg0.win 1).blk t).view.read (Elt Ideal) (selProd (xarr m c)) := by
  show (cfg0.win 1).cut (grid0.coords t) ((dats m 0 c).after 1 t) = _
  rw [after0_1]
  unfold out0_1
  rw [View.canon_unit_zero zeros]
  simp only [View.ld_unit_zero (S := S256x6272) zeros]
  obtain ⟨-, -, e2, e3⟩ := idx_facts t
  have hN : grid0.N = 16 := N_0
  have ht : t.val < 16 := hN ▸ t.isLt
  funext y
  have hy0 : (y 0).val < 256 := (y 0).isLt
  have hy1 : (y 1).val < 128 := (y 1).isLt
  have hy : y = ix2 (⟨(y 0).val, hy0⟩ : Fin 256) (⟨(y 1).val, hy1⟩ : Fin 128) := by
    funext a; match a with | ⟨0, _⟩ => rfl | ⟨1, _⟩ => rfl
  have hi : ((cfg0.win 1).blk t).view.emb y
      = ix2 (⟨t.val * 256 + (y 0).val, by omega⟩ : Fin 4096) (⟨(y 1).val, hy1⟩ : Fin 128) := by
    funext a; apply Fin.ext
    match a with
    | ⟨0, _⟩ => show win0_1.index t (0 : Fin 2) * 256 + 1 * (y 0).val = t.val * 256 + (y 0).val; omega
    | ⟨1, _⟩ => show win0_1.index t (1 : Fin 2) * 128 + 1 * (y 1).val = (y 1).val; omega
  show k0_pay1 (F := Ideal) (xblk m c t) y = selProd (xarr m c) (((cfg0.win 1).blk t).view.emb y)
  refine (congrArg (k0_pay1 (F := Ideal) (xblk m c t)) hy).trans ?_
  refine Eq.trans ?_ (congrArg (selProd (xarr m c)) hi.symm)
  exact block_entry (xblk m c t) (xarr m c) ⟨(y 0).val, hy0⟩ ⟨(y 1).val, hy1⟩ ⟨t.val * 256 + (y 0).val, by omega⟩
    (fun j => xblk_apply m c t ⟨(y 0).val, hy0⟩ j ⟨t.val * 256 + (y 0).val, by omega⟩ rfl)

/-- An index of the [4096, 128] array is in point t's block iff each coordinate is in the block's range on its axis. -/
theorem mem_blk (t : Fin cfg0.N) (i : S4096x128.Idx) :
    i ∈ ((cfg0.win 1).blk t).view.set ↔ ∀ a : Fin 2, win0_1.index t a * S256x128.size a ≤ (i a).val
      ∧ (i a).val < win0_1.index t a * S256x128.size a + S256x128.size a := by
  show i ∈ ((View.whole main_v2).slice (win0_1.rect t)).set ↔ _
  rw [View.set_slice_whole, Rect.mem_set_unit]
  exact Iff.rfl

/-- The 16 blocks of 256 rows tile the 4096 rows: row R is in the block of point R / 256. -/
theorem cover (i : S4096x128.Idx) :
    ∃ t : Fin cfg0.N, (cfg0.win 1).flush t = true ∧ i ∈ ((cfg0.win 1).blk t).view.set := by
  have hi0 : (i 0).val < 4096 := (i 0).isLt
  have hi1 : (i 1).val < 128 := (i 1).isLt
  have hN : grid0.N = 16 := N_0
  let t : Fin cfg0.N := ⟨(i 0).val / 256, by show (i 0).val / 256 < grid0.N; omega⟩
  have htv : t.val = (i 0).val / 256 := rfl
  obtain ⟨-, -, e2, e3⟩ := idx_facts t
  refine ⟨t, flush0_1 t, ?_⟩
  rw [mem_blk]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 128 ≤ (i 1).val ∧ (i 1).val < win0_1.index t (1 : Fin 2) * 128 + 128; omega

/-- The result array of the region after the run: the product of the rows. -/
theorem final (c : Dev nD) : (dats m 0 c).arrAt 1 cfg0.N = selProd (xarr m c) :=
  (dats m 0 c).arrAt_eq_of_cover 1 (selProd (xarr m c)) (fun t _ => flushed_eq m c t) cover

/-- The result after the two closing reshapes: the product viewed flat, then as [256, 2048, 1, 1]. -/
theorem tail_eq (c : Dev nD) :
    Pipeline.afterTail₀ cfgs (dats m) 0 (V0 m) [hostOps1] c main_v4
      = shapeCast S256x2048x1x1 (shapeCast S524288 (selProd (xarr m c)) shapeCasts_S4096x128_S524288)
          shapeCasts_S524288_S256x2048x1x1 := by
  unfold Pipeline.afterTail₀
  show StableHlo.after hostOps1 _ (Proc.devRef .tc main_v4) = _
  after_results
  rw [(Pipeline.withArrays_arr spec0 launch0.win.arr_inj c _ _ 1).trans (final m c)]
  rfl

/-- Entry (b, ch, 0, 0) of the reshaped product is the product's entry (R / 128, R % 128) at R = 2048 b + ch:
    both have row-major position R. -/
theorem out_apply (P : S4096x128.Idx → EReal) (b : Fin 256) (ch : Fin 2048) (z w : Fin 1) :
    shapeCast S256x2048x1x1 (shapeCast S524288 P shapeCasts_S4096x128_S524288) shapeCasts_S524288_S256x2048x1x1 (ix4 b ch z w)
      = P (ix2 (⟨(b.val * 2048 + ch.val) / 128, by omega⟩ : Fin 4096) (⟨(b.val * 2048 + ch.val) % 128, by omega⟩ : Fin 128)) := by
  refine (shapeCast_apply _ _ (ix4 b ch z w) (ix1 (⟨b.val * 2048 + ch.val, by omega⟩ : Fin 524288)) ?_).trans ?_
  · rw [Shape.rowMajor_val_one, Shape.rowMajor_val_four]
    show b.val * 2048 + ch.val = ((b.val * 2048 + ch.val) * 1 + z.val) * 1 + w.val
    omega
  refine shapeCast_apply _ _ _ _ ?_
  rw [Shape.rowMajor_val_one, Shape.rowMajor_val_two]
  show (b.val * 2048 + ch.val) / 128 * 128 + (b.val * 2048 + ch.val) % 128 = b.val * 2048 + ch.val
  omega

/-- Every entry of the rows is a real number when every entry of the argument is: entry (R, j) is the argument's entry
    at the index whose row-major position is n = 6272 R + j. -/
theorem rows_finite (c : Dev nD)
    (hfin : ∀ i : Cert.Pool.SIn.Idx, ∃ r : ℝ, m ((c.tc : Thread nD τ).loc main_arg0) i = (r : EReal))
    (R : Fin 4096) (j : Fin 6272) : ∃ r : ℝ, xarr m c (ix2 R j) = (r : EReal) := by
  have hR := R.isLt
  have hj := j.isLt
  rw [show xarr m c (ix2 R j) = _ from rows_apply m c R j
    (⟨(R.val * 6272 + j.val) / 100352, by omega⟩ : Fin 256) (⟨(R.val * 6272 + j.val) / 49 % 2048, by omega⟩ : Fin 2048)
    (⟨(R.val * 6272 + j.val) % 49 / 7, by omega⟩ : Fin 7) (⟨(R.val * 6272 + j.val) % 7, by omega⟩ : Fin 7)
    (by show (((R.val * 6272 + j.val) / 100352 * 2048 + (R.val * 6272 + j.val) / 49 % 2048) * 7
          + (R.val * 6272 + j.val) % 49 / 7) * 7 + (R.val * 6272 + j.val) % 7 = R.val * 6272 + j.val
        omega)]
  exact hfin _

/-- Entry (b, ch, 0, 0) of the result is the window's sum times the factor: the selection column R % 128 of row
    R / 128 (R = 2048 b + ch) keeps the 49 entries at positions 49 (R % 128) + k, which are the argument's entries at
    row-major position 6272 (R / 128) + 49 (R % 128) + k = 49 R + k, the window (b, ch). -/
theorem pooled_entry (c : Dev nD)
    (hfin : ∀ i : Cert.Pool.SIn.Idx, ∃ r : ℝ, m ((c.tc : Thread nD τ).loc main_arg0) i = (r : EReal))
    (b : Fin 256) (ch : Fin 2048) (z w : Fin 1) :
    shapeCast S256x2048x1x1 (shapeCast S524288 (selProd (xarr m c)) shapeCasts_S4096x128_S524288)
        shapeCasts_S524288_S256x2048x1x1 (ix4 b ch z w)
      = (∑ k : Fin 49, Cert.Pool.cell (m ((c.tc : Thread nD τ).loc main_arg0)) b ch k) * Cert.Pool.scale := by
  have hb := b.isLt
  have hch := ch.isLt
  rw [out_apply, selProd_apply]
  refine (Cert.Pool.sel_sum (fun j => xarr m c (ix2 (⟨(b.val * 2048 + ch.val) / 128, by omega⟩ : Fin 4096) j))
    (fun j => rows_finite m c hfin _ j) (⟨(b.val * 2048 + ch.val) % 128, by omega⟩ : Fin 128)).trans ?_
  refine congrArg (· * Cert.Pool.scale) (Finset.sum_congr rfl fun k _ => ?_)
  have hk := k.isLt
  unfold Cert.Pool.cell
  refine rows_apply m c _ _ b ch _ _ ?_
  show ((b.val * 2048 + ch.val) * 7 + k.val / 7) * 7 + k.val % 7
    = (b.val * 2048 + ch.val) / 128 * 6272 + ((b.val * 2048 + ch.val) % 128 * 49 + k.val)
  omega

/-- The result array is the pooled array. -/
theorem pooled (c : Dev nD)
    (hfin : ∀ i : Cert.Pool.SIn.Idx, ∃ r : ℝ, m ((c.tc : Thread nD τ).loc main_arg0) i = (r : EReal)) :
    shapeCast S256x2048x1x1 (shapeCast S524288 (selProd (xarr m c)) shapeCasts_S4096x128_S524288)
        shapeCasts_S524288_S256x2048x1x1
      = Cert.Pool.G (m ((c.tc : Thread nD τ).loc main_arg0)) := by
  funext i
  have hi : i = ix4 (⟨(i 0).val, (i 0).isLt⟩ : Fin 256) (⟨(i 1).val, (i 1).isLt⟩ : Fin 2048)
      (⟨(i 2).val, (i 2).isLt⟩ : Fin 1) (⟨(i 3).val, (i 3).isLt⟩ : Fin 1) := by
    funext a; match a with | ⟨0, _⟩ => rfl | ⟨1, _⟩ => rfl | ⟨2, _⟩ => rfl | ⟨3, _⟩ => rfl
  refine (congrArg _ hi).trans ?_
  exact pooled_entry m c hfin _ _ _ _

/-- The kernel's run with its result named, for a finite argument: the pooled array, the argument unchanged. -/
theorem run (hfin : ∀ (c : Dev nD) (i : Cert.Pool.SIn.Idx), ∃ r : ℝ, m ((c.tc : Thread nD τ).loc main_arg0) i = (r : EReal)) :
    θ_run defs (onTc (τ := τ) (main (F := Ideal))) ⟨m, fun _ => 0, ρ⟩ (fun r => ∀ c : Dev nD,
      r.2.mem ((c.tc : Thread nD τ).loc main_v4) = Cert.Pool.G (m ((c.tc : Thread nD τ).loc main_arg0))
      ∧ r.2.mem ((c.tc : Thread nD τ).loc main_arg0) = m ((c.tc : Thread nD τ).loc main_arg0)) :=
  (θ_run defs _ _).mono (fun r h c =>
    ⟨((h c).2 main_v4 (Pipeline.mem_restRefs_of main_v4 (by decide) (by decide))).trans
        ((tail_eq m c).trans (pooled m c (hfin c))),
      ((h c).2 main_arg0 (Pipeline.mem_restRefs_of main_arg0 (by decide) (by decide))).trans
        (W_main_arg0 m (dats m) c)⟩) (run_main m ρ)

end Cert.KernelIdeal.KerValue

end
-- ==== Proof.RefPay.lean ====
/-
  The reference kernel's stored value read at an index, at the ideal values: column `j` of the [1, 10624] result block
  is the sum of row `j` of the [10624, 49] input block times the factor of the mean. Only row `j` of the input enters.
-/
import proofs.«152840_g2000302540332858_pallasbulk_528_1_alg».proof.Proof.Gen.ReferenceIdeal.Skeleton
import proofs.«152840_g2000302540332858_pallasbulk_528_1_alg».proof.Proof.Spec
import Idealize.ShloMosaic.PureOps.Ideal.Laws
import Idealize.ShloMosaic.Lib.ValueIdx
import Idealize.ShloMosaic.Lib.Pipeline.Value

noncomputable section

namespace Cert.ReferenceIdeal.RefPay

open Idealize.ShloMosaic Idealize.ShloMosaic.ValueIdx
open Cert.ReferenceIdeal Cert.ReferenceIdeal.Gen

/-- The row sum read at a row: the sum over the 49 columns. -/
theorem rowsum_apply (Y : FVec Ideal S10624x49 .f32) (hφ : FKind.Formats .f32)
    (hacc : (0x00000000#32 : BitVec 32) = FKind.add.neutral .f32 hφ) (j : Fin 10624) :
    multiReduction (F := Ideal) .add [1] S10624 Y 0x00000000#32 reduces_S10624x49_S10624 hφ hacc (ix1 j)
      = ∑ k : Fin 49, Y (ix2 j k) := by
  refine (Ideal.multiReduction_add_single Y 0x00000000#32 reduces_S10624x49_S10624 hφ hacc (ix1 j)).trans ?_
  refine Finset.sum_congr rfl fun k _ => congrArg Y ?_
  funext a
  match a with
  | ⟨0, _⟩ => rfl
  | ⟨1, _⟩ => rfl

/-- Column `j` of the stored block: the unit-axis cast reads the scaled row sums at `j`, the product is pointwise, and
    the one-axis sum at `j` runs over row `j`'s 49 columns. -/
theorem pay_apply (X : Vec Ideal S10624x49 .f32) (j : Fin 10624) :
    k0_pay1 (F := Ideal) X (ix2 (0 : Fin 1) j) = (∑ k : Fin 49, X (ix2 j k)) * Cert.Pool.scale := by
  unfold k0_pay1
  refine (shapeCast_apply _ shapeCasts_S10624_S1x10624 (ix2 (0 : Fin 1) j) (ix1 j) ?_).trans ?_
  · rw [Shape.rowMajor_val_one, Shape.rowMajor_val_two]
    show j.val = 0 * 10624 + j.val
    omega
  · show FloatOps.mulf (F := Ideal) (multiReduction (F := Ideal) .add [1] S10624 (shapeCast S10624x49 (X : FVec Ideal S10624x49 .f32) shapeCasts_S10624x49_S10624x49) 0x00000000#32
        reduces_S10624x49_S10624 (.inl rfl) rfl (ix1 j)) (Scalar.ofBits (F := Ideal) .f32 0x3CA72F05#32) = _
    rw [shapeCast_self]
    exact congrArg (· * Cert.Pool.scale) (rowsum_apply X (.inl rfl) rfl j)

end Cert.ReferenceIdeal.RefPay

end
-- ==== Proof.RefFrame.lean ====
/-
  The reference program's run: its one pipelined region sums each row of a [10624, 49] block of the argument viewed
  [524288, 49] and scales it, over 50 points whose last block overhangs the array by 6912 rows. The fetch of that
  block lands only the 3712 rows inside the array and the write-back writes only the 3712 columns inside the result,
  so what the staging rows past the array's end hold never reaches the result: column `j` of the stored block
  depends on row `j` of the input block alone.
-/
import proofs.«152840_g2000302540332858_pallasbulk_528_1_alg».proof.Proof.Gen.ReferenceIdeal.Frame
import proofs.«152840_g2000302540332858_pallasbulk_528_1_alg».proof.Proof.Gen.ReferenceIdeal.Skeleton
import proofs.«152840_g2000302540332858_pallasbulk_528_1_alg».proof.Proof.RefPay

set_option maxRecDepth 16384

noncomputable section

namespace Cert.ReferenceIdeal.RefFrame

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- The input block at point `t`: the rows inside the array as the region finds them, zero on the rows past its end. -/
def xfill (c : Dev nD) (t : Fin cfg0.N) : Vec Ideal S10624x49 .f32 :=
  win0_0.fill (grid0.coords t) (fun _ => (0 : EReal)) (iblk m c 0 t)

/-- The proof data: the arrays as the region finds them; after the body the input's buffer at its block and the
    result's at the body's value of it (each stated, the windows being loose, on the part the transfers move). -/
def dats (_ : Fin 1) (c : Dev nD) : Dat τ (Elt Ideal) Unit ℕ (UR sig nD τ) ℕ cfg0 c where
  A w := V m c (Pipeline.arrRef spec0 w)
  after w t := match w with
    | ⟨0, _⟩ => xfill m c t
    | ⟨1, _⟩ => k0_pay1 (F := Ideal) (xfill m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = xfill m c t := by dsimp only [dats]
theorem after0_1 (c : Dev nD) (t : Fin cfg0.N) : (dats m 0 c).after 1 t = k0_pay1 (F := Ideal) (xfill m c t) := by
  dsimp only [dats]

/-! ## What the body finds -/

/-- Window 0 is fetched at every point: at point `t` its buffer holds the block's rows inside the array on the part the
    fetch moves, and past it whatever the buffer held (`d`). -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]; try rfl

/-- Window 1 is written back at every point: at every point the body finds its buffer at contents nothing names. -/
theorem before0_1 (c : Dev nD) (t : Fin cfg0.N) (d) : (dats m 0 c).before 1 t d = d := by
  refine (dats m 0 c).before_out_reset 1 rfl t ?_ d
  by_cases h : t.val = 0
  · exact .inl h
  · exact .inr ⟨h, flush0_1 _⟩

/-! ## The extents the transfers move -/

/-- At every point the write-back of window 1 moves as many columns as the fetch of window 0 moves rows: both are
    10624 cut at the array's end, 524288, counted from the block's start `10624 * t`. -/
theorem xsize_rows : ∀ t : Fin grid0.N, win0_1.xsize (grid0.coords t) 1 = win0_0.xsize (grid0.coords t) 0 := by
  decide +kernel

/-- The fetch of window 0 moves all 49 columns of a row. -/
theorem xsize_cols : ∀ t : Fin grid0.N, win0_0.xsize (grid0.coords t) 1 = 49 := by
  decide +kernel

/-- At an index the fetch moves, the filled block reads the fetched part, whatever fills the rest. -/
theorem fill_indep {α : Type} (t : Fin grid0.N) (d d' : win0_0.block.Idx → α) (g : (win0_0.xblock (grid0.coords t)).Idx → α)
    (j : win0_0.block.Idx) (h : win0_0.moved (grid0.coords t) j = true) :
    win0_0.fill (grid0.coords t) d g j = win0_0.fill (grid0.coords t) d' g j := by
  unfold Window.fill; rw [dif_pos h, dif_pos h]

/-- Locality: the columns of the stored block that the write-back moves do not depend on what fills the input block past
    the rows the fetch moved. Column `j` is the sum of row `j` of the input block times the factor; `j` is below the
    number of columns moved, which is the number of rows moved, so all 49 entries of row `j` are fetched ones. -/
theorem pay_local (t : Fin grid0.N) (d d' : S10624x49.Idx → EReal) (g : (win0_0.xblock (grid0.coords t)).Idx → EReal) :
    win0_1.cut (grid0.coords t) (k0_pay1 (F := Ideal) (win0_0.fill (grid0.coords t) d g))
      = win0_1.cut (grid0.coords t) (k0_pay1 (F := Ideal) (win0_0.fill (grid0.coords t) d' g)) := by
  funext j
  have hj : (j 1).val < win0_0.xsize (grid0.coords t) 0 := (xsize_rows t) ▸ (j 1).isLt
  have hj' : (j 1).val < 10624 := Nat.lt_of_lt_of_le hj (win0_0.xsize_le (grid0.coords t) 0)
  have hx : win0_1.xinj (grid0.coords t) j = ix2 (0 : Fin 1) (⟨(j 1).val, hj'⟩ : Fin 10624) := by
    funext a; match a with
    | ⟨0, _⟩ => exact Fin.ext (Nat.lt_one_iff.mp (Nat.lt_of_lt_of_le (j 0).isLt (win0_1.xsize_le (grid0.coords t) 0)))
    | ⟨1, _⟩ => rfl
  show k0_pay1 (F := Ideal) _ (win0_1.xinj (grid0.coords t) j) = k0_pay1 (F := Ideal) _ (win0_1.xinj (grid0.coords t) j)
  rw [hx, RefPay.pay_apply, RefPay.pay_apply]
  congr 1
  refine Finset.sum_congr rfl fun k _ => ?_
  refine fill_indep t d d' g _ ((win0_0.moved_iff _ _).mpr fun a => ?_)
  match a with
  | ⟨0, _⟩ => exact hj
  | ⟨1, _⟩ => exact (xsize_cols t).symm ▸ k.isLt

/-! ## The body's triple -/

set_option maxHeartbeats 1000000 in
/-- The body on whole staging memrefs, the input's at contents `x0` and the result's at anything, leaves the input's as it
    was and the result's at the body's value of `x0`: one load of the whole input buffer, one store over the whole
    result buffer (the body also loads the result's buffer before the store; nothing reads that value). -/
theorem sound_kernel (c : Dev nD) (E : Set ℕ) (i : grid0.Coords) (arg1 : Memref sig .tc .vmem S10624x49 .f32) (harg1 : arg1.IsWhole)
    (arg2 : Memref sig .tc .vmem S1x10624 .f32) (harg2 : arg2.IsWhole)
    (x0 : Vec Ideal S10624x49 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 (F := Ideal) x0)) -∗ K ⟨⟩))
      ⊢ wp frame (wpE (defs₀ (F := Ideal)) Variants.none c none) E (cc0__avg_pool_kernel i arg1 harg1 arg2 harg2) K := by
  simp only [cc0__avg_pool_kernel_eq_skeleton]; unfold cc0__avg_pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  have hz : (![0, 0] : Fin 2 → Nat) = fun _ => 0 := funext fun a => by fin_cases a <;> rfl
  refine (View.read_writes_eq_canon _ _ _ fun y =>
    ⟨_, List.mem_singleton.mpr rfl, View.mem_set_unit_zero hz inb_S1x10624_S1x10624_0_0 y⟩).trans ?_
  rw [View.canon_unit_zero hz]
  exact congrArg _ (View.ld_unit_zero hz _ _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns: each buffer stated on the part its window's transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ (∃ d, owns (c : Thread nD τ) (st0_1 t) fullShare
        (win0_1.fill (grid0.coords t) d (win0_1.cut (grid0.coords t) ((dats m 0 c).after 1 t)))))

/-- The body at any point. The input's buffer holds its fetched rows filled out with some `d0`; the body leaves it so, which
    on the rows the fetch moves is `xfill`. The result's buffer ends at the body's value of that filled block, which on the
    columns the write-back moves is the body's value of `xfill` (`pay_local`). The invariant and what is owed pass through
    unread. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (win0_0.fill (grid0.coords t) d0 (iblk m c 0 t)) _)
  isplitl [H0]; · iexact H0
  isplitl [H1]; · iexists _; iexact H1
  iintro ⟨H0, H1⟩
  isplitl [HΦ]; · iexact HΦ
  isplitl [Ho]; · iexact Ho
  isplitl [H0]
  · iexists d0
    rw [show win0_0.cut (grid0.coords t) (xfill m c t) = iblk m c 0 t from win0_0.cut_fill _ _ _]
    iexact H0
  · iexists k0_pay1 (F := Ideal) (win0_0.fill (grid0.coords t) d0 (iblk m c 0 t))
    unfold xfill
    erw [win0_1.fill_congr_cut (grid0.coords t) (pay_local t d0 (fun _ => (0 : EReal)) (iblk m c 0 t))]
    iexact H1

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of the reference terminates with the pipeline's arrays at what the proof data
    compute and every other unscoped buffer as the lines after the region leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument array ends as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.ReferenceIdeal.RefFrame

end
-- ==== Proof.RefValue.lean ====
/-
  What the reference's result holds after the run: the pooled array. Row R of the argument viewed [524288, 49]
  is the window at batch R / 2048, channel R % 2048; point R / 10624 of the grid writes its scaled sum to column R of
  the [1, 524288] result, the 50 cut blocks covering every column; the closing reshape lays column R at (b, c, 0, 0).
-/
import proofs.«152840_g2000302540332858_pallasbulk_528_1_alg».proof.Proof.RefFrame

set_option maxRecDepth 16384

noncomputable section

namespace Cert.ReferenceIdeal.RefValue

open Cert.ReferenceIdeal Cert.ReferenceIdeal.Gen Cert.ReferenceIdeal.RefFrame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ) (ρ : Dev nD → PrngReg)

/-- The argument array on a core. -/
abbrev xarg (c : Dev nD) : Cert.Pool.SIn.Idx → EReal := m ((c.tc : Thread nD τ).loc main_arg0)

/-- The argument as the region finds it, viewed [524288, 49]. -/
abbrev xarr (c : Dev nD) : S524288x49.Idx → EReal := V m c main_v0

/-- The reshape before the region lays the argument out row-major as [524288, 49]. -/
theorem xarr_eq (c : Dev nD) :
    xarr m c = shapeCast S524288x49 (xarg m c) shapeCasts_S256x2048x7x7_S524288x49 := by
  show StableHlo.after hostOps0 (fun b => m (c, b)) (Proc.devRef .tc main_v0) = _
  after_results
  rfl

/-- Row `R`, column `k` of that view is the argument at batch `R / 2048`, channel `R % 2048`, position `(k / 7, k % 7)`. -/
theorem xarr_apply (c : Dev nD) (R : Fin 524288) (k : Fin 49) :
    xarr m c (ix2 R k) = xarg m c (ix4 (⟨R.val / 2048, by have := R.isLt; omega⟩ : Fin 256) (⟨R.val % 2048, Nat.mod_lt _ (by decide)⟩ : Fin 2048)
      (⟨k.val / 7, by have := k.isLt; omega⟩ : Fin 7) (⟨k.val % 7, Nat.mod_lt _ (by decide)⟩ : Fin 7)) := by
  rw [xarr_eq]
  refine (shapeCast_apply _ _ _ _ ?_)
  rw [Shape.rowMajor_val_two, Shape.rowMajor_val_four]
  show ((R.val / 2048 * 2048 + R.val % 2048) * 7 + k.val / 7) * 7 + k.val % 7 = R.val * 49 + k.val
  have := R.isLt; have := k.isLt
  omega

/-- The printed index maps and the cuts at the arrays' ends, decided over the grid: point `t` takes the rows from
    `10624 t` of the input and the columns from `10624 t` of the result, as many as lie inside the array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_0.xsize (grid0.coords t) (0 : Fin 2) = min 10624 (524288 - 10624 * t.val)
    ∧ win0_0.xsize (grid0.coords t) (1 : Fin 2) = 49
    ∧ win0_1.xsize (grid0.coords t) (0 : Fin 2) = 1
    ∧ win0_1.xsize (grid0.coords t) (1 : Fin 2) = min 10624 (524288 - 10624 * t.val) :=
  (by decide +kernel : ∀ t : Fin grid0.N, _)

/-- The whole [1, 524288] result as one function of the argument: column `R` holds the sum of row `R` of the
    [524288, 49] view times the factor. -/
def G1 (c : Dev nD) : S1x524288.Idx → EReal := fun i =>
  (∑ k : Fin 49, xarr m c (ix2 (⟨(i 1).val, (i 1).isLt⟩ : Fin 524288) k)) * Cert.Pool.scale

/-- What point `t` writes back is its block of `G1`: column `j` of the stored block is the sum of row `j` of the
    input block, a row inside the array wherever the column is, and that row is row `10624 t + j` of the view. -/
theorem flushed_eq (c : Dev nD) (t : Fin cfg0.N) :
    (dats m 0 c).flushed 1 t = ((cfg0.win 1).blk t).view.read (Elt Ideal) (G1 m c) := by
  show (cfg0.win 1).cut (grid0.coords t) ((dats m 0 c).after 1 t) = _
  rw [after0_1]
  obtain ⟨e00, e01, e10, e11, x00, x01, x10, x11⟩ := idx_facts t
  have ht : t.val < 50 := Nat.lt_of_lt_of_eq t.isLt N_0
  funext y
  have hy0 : (y 0).val < win0_1.xsize (grid0.coords t) 0 := (y 0).isLt
  have hy1 : (y 1).val < win0_1.xsize (grid0.coords t) 1 := (y 1).isLt
  rw [x10] at hy0; rw [x11] at hy1
  have hj : (y 1).val < 10624 := by omega
  have hR : win0_1.index t (1 : Fin 2) * 10624 + 1 * (y 1).val < 524288 := by rw [e11]; omega
  show k0_pay1 (F := Ideal) (xfill m c t) (win0_1.xinj (grid0.coords t) y) = G1 m c (((cfg0.win 1).blk t).view.emb y)
  have exi : win0_1.xinj (grid0.coords t) y = ix2 (0 : Fin 1) (⟨(y 1).val, hj⟩ : Fin 10624) := by
    funext a; apply Fin.ext
    match a with
    | ⟨0, _⟩ => show (y 0).val = 0; omega
    | ⟨1, _⟩ => rfl
  refine (congrArg (k0_pay1 (F := Ideal) (xfill m c t)) exi).trans ?_
  refine (RefPay.pay_apply (xfill m c t) (⟨(y 1).val, hj⟩ : Fin 10624)).trans ?_
  show _ = (∑ k : Fin 49, xarr m c (ix2 (⟨win0_1.index t (1 : Fin 2) * 10624 + 1 * (y 1).val, hR⟩ : Fin 524288) k)) * Cert.Pool.scale
  refine congrArg (· * Cert.Pool.scale) (Finset.sum_congr rfl fun k _ => ?_)
  -- the row is one the fetch lands: the entry is the block's, read through the block's rectangle
  have h0 : (y 1).val < win0_0.xsize (grid0.coords t) (0 : Fin 2) := by rw [x00]; exact hy1
  have h1 : k.val < win0_0.xsize (grid0.coords t) (1 : Fin 2) := by rw [x01]; exact k.isLt
  let y' : (win0_0.xblock (grid0.coords t)).Idx := fun a => match a with
    | ⟨0, _⟩ => (⟨(y 1).val, h0⟩ : Fin (win0_0.xsize (grid0.coords t) (0 : Fin 2)))
    | ⟨1, _⟩ => (⟨k.val, h1⟩ : Fin (win0_0.xsize (grid0.coords t) (1 : Fin 2)))
  have exj : ix2 (⟨(y 1).val, hj⟩ : Fin 10624) k = win0_0.xinj (grid0.coords t) y' := by
    funext a; apply Fin.ext
    match a with
    | ⟨0, _⟩ => rfl
    | ⟨1, _⟩ => rfl
  unfold xfill
  refine (congrArg (win0_0.fill (grid0.coords t) (fun _ => (0 : EReal)) (iblk m c 0 t)) exj).trans ?_
  refine (win0_0.fill_xinj (grid0.coords t) (fun _ => (0 : EReal)) (iblk m c 0 t) y').trans ?_
  show V m c main_v0 (((cfg0.win 0).blk t).view.emb y') = V m c main_v0 (ix2 (⟨win0_1.index t (1 : Fin 2) * 10624 + 1 * (y 1).val, hR⟩ : Fin 524288) k)
  refine congrArg (V m c main_v0) ?_
  funext a; apply Fin.ext
  match a with
  | ⟨0, _⟩ =>
    show win0_0.index t (0 : Fin 2) * 10624 + 1 * (y 1).val = win0_1.index t (1 : Fin 2) * 10624 + 1 * (y 1).val
    rw [e00, e11]
  | ⟨1, _⟩ =>
    show win0_0.index t (1 : Fin 2) * 49 + 1 * k.val = k.val
    rw [e01]; omega

/-- A column of the result is in point `t`'s block iff each coordinate is in the block's range inside the array. -/
theorem mem_blk (t : Fin cfg0.N) (i : S1x524288.Idx) :
    i ∈ ((cfg0.win 1).blk t).view.set ↔ ∀ a : Fin 2, win0_1.index t a * S1x10624.size a ≤ (i a).val
      ∧ (i a).val < win0_1.index t a * S1x10624.size a + win0_1.xsize (grid0.coords t) a := by
  show i ∈ ((View.whole main_v1).slice (win0_1.rect t)).set ↔ _
  rw [View.set_slice_whole, Rect.mem_set_unit]
  exact Iff.rfl

/-- Every column `R` of the result lies in the block of point `R / 10624`: the 49 full blocks and the last one's
    3712 columns inside the array cover it. -/
theorem cover (i : S1x524288.Idx) :
    ∃ t : Fin cfg0.N, (cfg0.win 1).flush t = true ∧ i ∈ ((cfg0.win 1).blk t).view.set := by
  have hi0 : (i 0).val < 1 := (i 0).isLt
  have hi1 : (i 1).val < 524288 := (i 1).isLt
  have hN : (i 1).val / 10624 < cfg0.N := by rw [show cfg0.N = 50 from N_0]; omega
  refine ⟨⟨(i 1).val / 10624, hN⟩, flush0_1 _, ?_⟩
  rw [mem_blk]
  obtain ⟨e00, e01, e10, e11, x00, x01, x10, x11⟩ := idx_facts ⟨(i 1).val / 10624, hN⟩
  intro a
  match a with
  | ⟨0, _⟩ =>
    show win0_1.index _ (0 : Fin 2) * 1 ≤ (i 0).val ∧ (i 0).val < win0_1.index _ (0 : Fin 2) * 1 + win0_1.xsize _ (0 : Fin 2)
    rw [e10, x10]; omega
  | ⟨1, _⟩ =>
    show win0_1.index _ (1 : Fin 2) * 10624 ≤ (i 1).val ∧ (i 1).val < win0_1.index _ (1 : Fin 2) * 10624 + win0_1.xsize _ (1 : Fin 2)
    rw [e11, x11]
    show (i 1).val / 10624 * 10624 ≤ (i 1).val ∧ (i 1).val < (i 1).val / 10624 * 10624 + min 10624 (524288 - 10624 * ((i 1).val / 10624))
    omega

/-- The result array after the run is `G1`. -/
theorem final (c : Dev nD) : (dats m 0 c).arrAt 1 cfg0.N = G1 m c :=
  (dats m 0 c).arrAt_eq_of_cover 1 (G1 m c) (fun t _ => flushed_eq m c t) cover

/-- The array the closing reshape leaves: `G1` laid out as [256, 2048, 1, 1]. -/
theorem tail_eq (c : Dev nD) :
    Pipeline.afterTail₀ cfgs (dats m) 0 (V0 m) [hostOps1] c main_v2
      = shapeCast S256x2048x1x1 (G1 m c) shapeCasts_S1x524288_S256x2048x1x1 := by
  have e : Pipeline.withArrays (cfgs 0).spec c (V0 m c) (fun w => (dats m 0 c).arrAt w (cfgs 0).N) (Proc.devRef .tc main_v1)
      = G1 m c :=
    (Pipeline.withArrays_arr spec0 launch0.win.arr_inj c _ _ 1).trans (final m c)
  unfold Pipeline.afterTail₀
  show StableHlo.after hostOps1 _ (Proc.devRef .tc main_v2) = _
  after_results
  exact congrArg (fun v : S1x524288.Idx → EReal => shapeCast S256x2048x1x1 v shapeCasts_S1x524288_S256x2048x1x1) e

/-- Read at `(b, c', 0, 0)` the reshaped result is column `2048 b + c'` of `G1`, the sum of row `2048 b + c'` of the
    view times the factor; that row is the window at batch `b`, channel `c'`: the pooled array's entry. -/
theorem out_apply (c : Dev nD) (i : S256x2048x1x1.Idx) :
    shapeCast S256x2048x1x1 (G1 m c) shapeCasts_S1x524288_S256x2048x1x1 i = Cert.Pool.G (xarg m c) i := by
  have h0 : (i 0).val < 256 := (i 0).isLt
  have h1 : (i 1).val < 2048 := (i 1).isLt
  have h2 : (i 2).val < 1 := (i 2).isLt
  have h3 : (i 3).val < 1 := (i 3).isLt
  have hR : (i 0).val * 2048 + (i 1).val < 524288 := by omega
  refine (shapeCast_apply (G1 m c) _ i (ix2 (0 : Fin 1) (⟨(i 0).val * 2048 + (i 1).val, hR⟩ : Fin 524288)) ?_).trans ?_
  · rw [Shape.rowMajor_val_two, Shape.rowMajor_val_four]
    show 0 * 524288 + ((i 0).val * 2048 + (i 1).val) = (((i 0).val * 2048 + (i 1).val) * 1 + (i 2).val) * 1 + (i 3).val
    omega
  · unfold G1 Cert.Pool.G
    refine congrArg (· * Cert.Pool.scale) (Finset.sum_congr rfl fun k _ => ?_)
    refine (xarr_apply m c (⟨(i 0).val * 2048 + (i 1).val, hR⟩ : Fin 524288) k).trans ?_
    unfold Cert.Pool.cell
    refine congrArg (xarg m c) ?_
    funext a; apply Fin.ext
    match a with
    | ⟨0, _⟩ => show ((i 0).val * 2048 + (i 1).val) / 2048 = (i 0).val; omega
    | ⟨1, _⟩ => show ((i 0).val * 2048 + (i 1).val) % 2048 = (i 1).val; omega
    | ⟨2, _⟩ => rfl
    | ⟨3, _⟩ => rfl

/-- The reference's run with its result named: the pooled array of the argument, the argument unchanged. -/
theorem run : θ_run defs (onTc (τ := τ) (main (F := Ideal))) ⟨m, fun _ => 0, ρ⟩ (fun r => ∀ c : Dev nD,
      r.2.mem ((c.tc : Thread nD τ).loc main_v2) = Cert.Pool.G (m ((c.tc : Thread nD τ).loc main_arg0))
      ∧ r.2.mem ((c.tc : Thread nD τ).loc main_arg0) = m ((c.tc : Thread nD τ).loc main_arg0)) :=
  (θ_run defs _ _).mono (fun r h c =>
    ⟨((h c).2 main_v2 (Pipeline.mem_restRefs_of main_v2 (by decide) (by decide))).trans
        ((tail_eq m c).trans (funext fun i => out_apply m c i)),
      ((h c).2 main_arg0 (Pipeline.mem_restRefs_of main_arg0 (by decide) (by decide))).trans (W_main_arg0 m (dats m) c)⟩)
    (run_main m ρ)

end Cert.ReferenceIdeal.RefValue

end
-- ==== Proof.lean ====
/-
  Global average pooling of an f32[256, 2048, 7, 7] array over its two trailing axes, two ways, equal over the
  extended reals for finite inputs.

  The kernel views the argument flat and then as [4096, 6272] — each row 128 windows of 49 entries — and multiplies
  blocks of 256 rows by a [6272, 128] selection matrix whose entry (j, g) is the f32 word for 1/49 where j / 49 = g
  and zero elsewhere, so entry (r, g) of the product is the scaled sum of window 128 r + g. The reference views the
  argument as [524288, 49], sums each row and scales it by the same word, in blocks of 10624 rows of which the last
  overhangs the array; the rows past the array's end never reach a column that is written back. Both end at the pooled
  array `Cert.Pool.G` of the argument: the reference by reading its sums, the kernel because the products by zero
  vanish and a sum of products of finite numbers by one factor is the product of their sum by it.

  The three frames: the kernel's two are the generated ones; the reference's is its run with the result dropped.
  The idealization rewrote nothing, so `preserves` is `True`.
-/
import proofs.«152840_g2000302540332858_pallasbulk_528_1_alg».proof.Defs
import proofs.«152840_g2000302540332858_pallasbulk_528_1_alg».proof.Proof.Gen.Kernel
import proofs.«152840_g2000302540332858_pallasbulk_528_1_alg».proof.Proof.Gen.Kernel.Frame
import proofs.«152840_g2000302540332858_pallasbulk_528_1_alg».proof.Proof.Gen.KernelIdeal
import proofs.«152840_g2000302540332858_pallasbulk_528_1_alg».proof.Proof.Gen.KernelIdeal.Frame
import proofs.«152840_g2000302540332858_pallasbulk_528_1_alg».proof.Proof.Gen.ReferenceIdeal
import proofs.«152840_g2000302540332858_pallasbulk_528_1_alg».proof.Proof.Gen.Pre_finite_inputs
import proofs.«152840_g2000302540332858_pallasbulk_528_1_alg».proof.Proof.Finite
import proofs.«152840_g2000302540332858_pallasbulk_528_1_alg».proof.Proof.KerValue
import proofs.«152840_g2000302540332858_pallasbulk_528_1_alg».proof.Proof.RefFrame
import proofs.«152840_g2000302540332858_pallasbulk_528_1_alg».proof.Proof.RefValue
import Idealize.ShloMosaic.Adequacy
import Idealize.ShloMosaic.Init

noncomputable section

namespace Cert.Proof

open Idealize.ShloMosaic Idealize.SL.Sem

/-- Both idealized programs, from memories that agree on the argument, end at the pooled array of it: the kernel's
    run for a finite argument (the precondition gives a real number at every index), the reference's run for any,
    the two arguments identified. -/
theorem algebraic : Cert.algebraic_KernelIdeal_ReferenceIdeal := by
  intro m ρ m' ρ' hpre hagree
  refine ⟨fun c => Cert.Pool.G (m ((c.tc : Thread Cert.KernelIdeal.nD Cert.KernelIdeal.τ).loc Cert.KernelIdeal.main_arg0)),
    Cert.KernelIdeal.KerValue.run m ρ (fun c i => Cert.Pool.finite_of_pre _ (hpre c) i), ?_⟩
  refine (θ_run Cert.ReferenceIdeal.defs _ _).mono (fun _ h c => ⟨?_, (h c).2⟩)
    (Cert.ReferenceIdeal.RefValue.run m' ρ')
  rw [(h c).1, hagree c]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.RefFrame.frame m ρ,
    trivial,
    algebraic⟩

end Cert.Proof

end
